-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x768 : Shape := ⟨3, ![4, 512, 768]⟩
abbrev S48x1536 : Shape := ⟨2, ![48, 1536]⟩
abbrev S48 : Shape := ⟨1, ![48]⟩
abbrev S_ : Shape := ⟨0, ![]⟩

class Facts : Prop where
  bcast_S_S4x512x768 : S_.BroadcastsInDim S4x512x768 (![] : Fin 0 → Fin S4x512x768.rank)
  reducesTo_S4x512x768_S_d0_1_2 : S4x512x768.ReducesTo [0, 1, 2] S_
  h_S_ : 0 < S_.numel
  bcast_S_S48x1536 : S_.BroadcastsInDim S48x1536 (![] : Fin 0 → Fin S48x1536.rank)
  reducesTo_S48x1536_S_d0_1 : S48x1536.ReducesTo [0, 1] S_
  bcast_S_S48 : S_.BroadcastsInDim S48 (![] : Fin 0 → Fin S48.rank)
  reducesTo_S48_S_d0 : S48.ReducesTo [0] S_

variable [Facts]

def fn {F : FTy → Type} [FloatOps F] (main_arg0 : FVec F S4x512x768 .f32) (main_arg1 : FVec F S48x1536 .f32) (main_arg2 : FVec F S48 .f32) : IVec S_ 1 :=
  let main_v0 : FVec F S4x512x768 .f32 := Host.absf main_arg0
  let main_cst : FVec F S_ .f32 := constant S_ .f32 0x7F800000#32
  let main_v1 : FVec F S4x512x768 .f32 := broadcastInDim S4x512x768 ![] bcast_S_S4x512x768 main_cst
  let main_v2 : IVec S4x512x768 1 := cmpf .olt main_v0 main_v1
  let main_c : IVec S_ 1 := constantI S_ 1 1#1
  let main_v3 : IVec S_ 1 := (fun x v => Host.reduce IntOp.andi x v reducesTo_S4x512x768_S_d0_1_2 h_S_) main_v2 main_c
  let main_v4 : FVec F S48x1536 .f32 := Host.absf main_arg1
  let main_cst_0 : FVec F S_ .f32 := constant S_ .f32 0x7F800000#32
  let main_v5 : FVec F S48x1536 .f32 := broadcastInDim S48x1536 ![] bcast_S_S48x1536 main_cst_0
  let main_v6 : IVec S48x1536 1 := cmpf .olt main_v4 main_v5
  let main_c_1 : IVec S_ 1 := constantI S_ 1 1#1
  let main_v7 : IVec S_ 1 := (fun x v => Host.reduce IntOp.andi x v reducesTo_S48x1536_S_d0_1 h_S_) main_v6 main_c_1
  let main_v8 : IVec S_ 1 := andi main_v3 main_v7
  let main_v9 : FVec F S48 .f32 := Host.absf main_arg2
  let main_cst_2 : FVec F S_ .f32 := constant S_ .f32 0x7F800000#32
  let main_v10 : FVec F S48 .f32 := broadcastInDim S48 ![] bcast_S_S48 main_cst_2
  let main_v11 : IVec S48 1 := cmpf .olt main_v9 main_v10
  let main_c_3 : IVec S_ 1 := constantI S_ 1 1#1
  let main_v12 : IVec S_ 1 := (fun x v => Host.reduce IntOp.andi x v reducesTo_S48_S_d0 h_S_) main_v11 main_c_3
  let main_v13 : IVec S_ 1 := andi main_v8 main_v12
  main_v13
-- ==== Kernel.lean ====
abbrev S4x512x768 : Shape := ⟨3, ![4, 512, 768]⟩
abbrev S48x1536 : Shape := ⟨2, ![48, 1536]⟩
abbrev S48 : Shape := ⟨1, ![48]⟩
abbrev S48x768 : Shape := ⟨2, ![48, 768]⟩
abbrev S768x48 : Shape := ⟨2, ![768, 48]⟩
abbrev S1x48 : Shape := ⟨2, ![1, 48]⟩
abbrev S4x512x48 : Shape := ⟨3, ![4, 512, 48]⟩
abbrev S1x128x768 : Shape := ⟨3, ![1, 128, 768]⟩
abbrev S1x128x48 : Shape := ⟨3, ![1, 128, 48]⟩
abbrev S128x768 : Shape := ⟨2, ![128, 768]⟩
abbrev S128x48 : Shape := ⟨2, ![128, 48]⟩
abbrev S4x512x512x48 : Shape := ⟨4, ![4, 512, 512, 48]⟩
abbrev S1x256x48 : Shape := ⟨3, ![1, 256, 48]⟩
abbrev S1x256x128x48 : Shape := ⟨4, ![1, 256, 128, 48]⟩
abbrev S256x48 : Shape := ⟨2, ![256, 48]⟩
abbrev S256x1x48 : Shape := ⟨3, ![256, 1, 48]⟩
abbrev S256x128x48 : Shape := ⟨3, ![256, 128, 48]⟩
abbrev S1x1x48 : Shape := ⟨3, ![1, 1, 48]⟩

abbrev nBuf : Space → Nat
  | .hbm => 11
  | .vmem => 15
  | .smem => 0
  | _ => 0

abbrev bufTy : (tb : Table) → Fin (tcTables nBuf tb) → BufTy
  | .hbm, ⟨0, _⟩ => ⟨S4x512x768, .f32⟩
  | .hbm, ⟨1, _⟩ => ⟨S48x1536, .f32⟩
  | .hbm, ⟨2, _⟩ => ⟨S48, .f32⟩
  | .hbm, ⟨3, _⟩ => ⟨S48x768, .f32⟩
  | .hbm, ⟨4, _⟩ => ⟨S48x768, .f32⟩
  | .hbm, ⟨5, _⟩ => ⟨S768x48, .f32⟩
  | .hbm, ⟨6, _⟩ => ⟨S768x48, .f32⟩
  | .hbm, ⟨7, _⟩ => ⟨S1x48, .f32⟩
  | .hbm, ⟨8, _⟩ => ⟨S4x512x48, .f32⟩
  | .hbm, ⟨9, _⟩ => ⟨S4x512x48, .f32⟩
  | .hbm, ⟨10, _⟩ => ⟨S4x512x512x48, .f32⟩
  | .local _ .vmem, ⟨0, _⟩ => ⟨S1x128x768, .f32⟩
  | .local _ .vmem, ⟨1, _⟩ => ⟨S1x128x768, .f32⟩
  | .local _ .vmem, ⟨2, _⟩ => ⟨S768x48, .f32⟩
  | .local _ .vmem, ⟨3, _⟩ => ⟨S768x48, .f32⟩
  | .local _ .vmem, ⟨4, _⟩ => ⟨S1x128x48, .f32⟩
  | .local _ .vmem, ⟨5, _⟩ => ⟨S1x128x48, .f32⟩
  | .local _ .vmem, ⟨6, _⟩ => ⟨S1x128x48, .f32⟩
  | .local _ .vmem, ⟨7, _⟩ => ⟨S1x128x48, .f32⟩
  | .local _ .vmem, ⟨8, _⟩ => ⟨S1x256x48, .f32⟩
  | .local _ .vmem, ⟨9, _⟩ => ⟨S1x256x48, .f32⟩
  | .local _ .vmem, ⟨10, _⟩ => ⟨S1x128x48, .f32⟩
  | .local _ .vmem, ⟨11, _⟩ => ⟨S1x128x48, .f32⟩
  | .local _ .vmem, ⟨12, _⟩ => ⟨S1x48, .f32⟩
  | .local _ .vmem, ⟨13, _⟩ => ⟨S1x256x128x48, .f32⟩
  | .local _ .vmem, ⟨14, _⟩ => ⟨S1x256x128x48, .f32⟩
  | _, _ => ⟨S4x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x48 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![4, 2, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x256x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x128x48 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 1 → Memref sig .tc .vmem S1x48 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 2 → Memref sig .tc .vmem S1x256x128x48 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

class Facts₀ : Prop where
  slices_S48x1536_S48x768_0_0 : S48x1536.Slices ![0, 0] S48x768
  slices_S48x1536_S48x768_0_768 : S48x1536.Slices ![0, 768] S48x768
  transposes_S48x768_S768x48_1_0 : S48x768.Transposes [1, 0] S768x48
  shapeCasts_S48_S1x48 : S48.ShapeCasts S1x48
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  bitsLt_bf16_f32 : FTy.bits .bf16 < FTy.bits .f32
  inb_S768x48_S768x48_0_0 : ∀ a, (![0, 0] : Fin 2 → Nat) a + S768x48.size a ≤ S768x48.size a
  h_S768x48 : 0 < S768x48.numel
  shapeCasts_S768x48_S768x48 : S768x48.ShapeCasts S768x48
  inb_S1x128x48_S1x128x48_0_0_0 : ∀ a, (![0, 0, 0] : Fin 3 → Nat) a + S1x128x48.size a ≤ S1x128x48.size a
  h_S1x128x48 : 0 < S1x128x48.numel
  shapeCasts_S1x128x48_S128x48 : S1x128x48.ShapeCasts S128x48
  shapeCasts_S128x48_S1x128x48 : S128x48.ShapeCasts S1x128x48
  inb_S1x256x48_S1x256x48_0_0_0 : ∀ a, (![0, 0, 0] : Fin 3 → Nat) a + S1x256x48.size a ≤ S1x256x48.size a
  h_S1x256x48 : 0 < S1x256x48.numel
  shapeCasts_S1x256x48_S256x48 : S1x256x48.ShapeCasts S256x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  shapeCasts_S256x48_S256x1x48 : S256x48.ShapeCasts S256x1x48
  broadcasts_S256x1x48_S256x128x48 : S256x1x48.Broadcasts S256x128x48
  broadcasts_S1x128x48_S256x128x48 : S1x128x48.Broadcasts S256x128x48
  shapeCasts_S1x48_S1x1x48 : S1x48.ShapeCasts S1x1x48
  broadcasts_S1x1x48_S256x128x48 : S1x1x48.Broadcasts S256x128x48
  inb_S1x256x128x48_S1x256x128x48_0_0_0_0 : ∀ a, (![0, 0, 0, 0] : Fin 4 → Nat) a + S1x256x128x48.size a ≤ S1x256x128x48.size a
  h_S1x256x128x48 : 0 < S1x256x128x48.numel
  shapeCasts_S1x256x128x48_S256x128x48 : S1x256x128x48.ShapeCasts S256x128x48
  shapeCasts_S256x128x48_S1x256x128x48 : S256x128x48.ShapeCasts S1x256x128x48
  dot_S128x768_S768x48_S128x48_1_0_0_1_n_n_wf : DotDims.WF S128x768 S768x48 S128x48 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x768.size a ≤ S4x512x768.size a
  hwx0_0 : ∀ i : grid0.Coords, EltTy.bits .f32 = 32 ∨ (Rect.block (s := S4x512x768) S1x128x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x48.size a ≤ S768x48.size a
  hwx0_1 : ∀ i : grid0.Coords, EltTy.bits .f32 = 32 ∨ (Rect.block (s := S768x48) S768x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x48.size a ≤ S768x48.size a
  hwx0_2 : ∀ i : grid0.Coords, EltTy.bits .f32 = 32 ∨ (Rect.block (s := S768x48) S768x48.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x48.size a ≤ S4x512x48.size a
  hwx0_3 : ∀ i : grid0.Coords, EltTy.bits .f32 = 32 ∨ (Rect.block (s := S4x512x48) S1x128x48.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x48.size a ≤ S4x512x48.size a
  hwx0_4 : ∀ i : grid0.Coords, EltTy.bits .f32 = 32 ∨ (Rect.block (s := S4x512x48) S1x128x48.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x48.size a ≤ S4x512x48.size a
  hwx1_0 : ∀ i : grid1.Coords, EltTy.bits .f32 = 32 ∨ (Rect.block (s := S4x512x48) S1x256x48.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x48.size a ≤ S4x512x48.size a
  hwx1_1 : ∀ i : grid1.Coords, EltTy.bits .f32 = 32 ∨ (Rect.block (s := S4x512x48) S1x128x48.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x48.size a ≤ S1x48.size a
  hwx1_2 : ∀ i : grid1.Coords, EltTy.bits .f32 = 32 ∨ (Rect.block (s := S1x48) S1x48.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x128x48.size a ≤ S4x512x512x48.size a
  hwx1_3 : ∀ i : grid1.Coords, EltTy.bits .f32 = 32 ∨ (Rect.block (s := S4x512x512x48) S1x256x128x48.size (cc1_transform_3 i) (hinb1_3 i)).WholeWords (EltTy.packing .f32)

variable [Facts₀]

def dot_S128x768_S768x48_S128x48_1_0_0_1_n_n : DotDims S128x768 S768x48 S128x48 where
  lhsContracting := [1]
  rhsContracting := [0]
  lhsNonContracting := [0]
  rhsNonContracting := [1]
  lhsBatch := []
  rhsBatch := []
  wf := dot_S128x768_S768x48_S128x48_1_0_0_1_n_n_wf

abbrev win0_0 : Pipeline.Window sig grid0 :=
  Pipeline.Window.ofSpec (Memref.whole main_arg0) S1x128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S768x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S768x48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1x128x48.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x128x48.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5_0) S1x256x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S1x128x48.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x48.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x256x128x48.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x512x768 : Shape := ⟨3, ![4, 512, 768]⟩
abbrev S48x1536 : Shape := ⟨2, ![48, 1536]⟩
abbrev S48 : Shape := ⟨1, ![48]⟩
abbrev S48x768 : Shape := ⟨2, ![48, 768]⟩
abbrev S4x512x48 : Shape := ⟨3, ![4, 512, 48]⟩
abbrev S4x512x1x48 : Shape := ⟨4, ![4, 512, 1, 48]⟩
abbrev S4x1x512x48 : Shape := ⟨4, ![4, 1, 512, 48]⟩
abbrev S4x512x512x48 : Shape := ⟨4, ![4, 512, 512, 48]⟩
abbrev S1x1x1x48 : Shape := ⟨4, ![1, 1, 1, 48]⟩

abbrev nBuf : Space → Nat
  | .hbm => 15
  | .vmem => 0
  | .smem => 0
  | _ => 0

abbrev bufTy : (tb : Table) → Fin (tcTables nBuf tb) → BufTy
  | .hbm, ⟨0, _⟩ => ⟨S4x512x768, .f32⟩
  | .hbm, ⟨1, _⟩ => ⟨S48x1536, .f32⟩
  | .hbm, ⟨2, _⟩ => ⟨S48, .f32⟩
  | .hbm, ⟨3, _⟩ => ⟨S48x768, .f32⟩
  | .hbm, ⟨4, _⟩ => ⟨S48x768, .f32⟩
  | .hbm, ⟨5, _⟩ => ⟨S4x512x48, .f32⟩
  | .hbm, ⟨6, _⟩ => ⟨S4x512x48, .f32⟩
  | .hbm, ⟨7, _⟩ => ⟨S4x512x1x48, .f32⟩
  | .hbm, ⟨8, _⟩ => ⟨S4x1x512x48, .f32⟩
  | .hbm, ⟨9, _⟩ => ⟨S4x512x512x48, .f32⟩
  | .hbm, ⟨10, _⟩ => ⟨S4x512x512x48, .f32⟩
  | .hbm, ⟨11, _⟩ => ⟨S4x512x512x48, .f32⟩
  | .hbm, ⟨12, _⟩ => ⟨S1x1x1x48, .f32⟩
  | .hbm, ⟨13, _⟩ => ⟨S4x512x512x48, .f32⟩
  | .hbm, ⟨14, _⟩ => ⟨S4x512x512x48, .f32⟩
  | _, _ => ⟨S4x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  slices_S48x1536_S48x768_0_0 : S48x1536.Slices ![0, 0] S48x768
  slices_S48x1536_S48x768_0_768 : S48x1536.Slices ![0, 768] S48x768
  bcast_S4x512x48_S4x512x1x48_0_1_3 : S4x512x48.BroadcastsInDim S4x512x1x48 (![0, 1, 3] : Fin 3 → Fin S4x512x1x48.rank)
  bcast_S4x512x48_S4x1x512x48_0_2_3 : S4x512x48.BroadcastsInDim S4x1x512x48 (![0, 2, 3] : Fin 3 → Fin S4x1x512x48.rank)
  bcast_S4x512x1x48_S4x512x512x48_0_1_2_3 : S4x512x1x48.BroadcastsInDim S4x512x512x48 (![0, 1, 2, 3] : Fin 4 → Fin S4x512x512x48.rank)
  bcast_S4x1x512x48_S4x512x512x48_0_1_2_3 : S4x1x512x48.BroadcastsInDim S4x512x512x48 (![0, 1, 2, 3] : Fin 4 → Fin S4x512x512x48.rank)
  bcast_S48_S1x1x1x48_3 : S48.BroadcastsInDim S1x1x1x48 (![3] : Fin 1 → Fin S1x1x1x48.rank)
  bcast_S1x1x1x48_S4x512x512x48_0_1_2_3 : S1x1x1x48.BroadcastsInDim S4x512x512x48 (![0, 1, 2, 3] : Fin 4 → Fin S4x512x512x48.rank)
  dot_S4x512x768_S48x768_S4x512x48_2_1_01_0_n_n_wf : DotDims.WF S4x512x768 S48x768 S4x512x48 [2] [1] [0, 1] [0] [] []

variable [Facts₀]

def dot_S4x512x768_S48x768_S4x512x48_2_1_01_0_n_n : DotDims S4x512x768 S48x768 S4x512x48 where
  lhsContracting := [2]
  rhsContracting := [1]
  lhsNonContracting := [0, 1]
  rhsNonContracting := [0]
  lhsBatch := []
  rhsBatch := []
  wf := dot_S4x512x768_S48x768_S4x512x48_2_1_01_0_n_n_wf

class Facts : Prop extends Facts₀ where

variable [Facts]
-- ==== Proof.Spec.lean ====
/-
  The pairwise head, as one function of the three argument arrays.

  With `h : [4, 512, 768]`, `W : [48, 1536]` and `b : [48]`, the result at `(n, i, j, c)` is
      (Σ_k h[n, i, k] · W[c, k]  +  Σ_k h[n, j, k] · W[c, 768 + k])  +  b[c],
  the left half of row `c` of `W` against row `i` of batch `n`, the right half against row `j`, and the bias, the two
  projections added first. Both programs group the three summands this way, so no law of the extended reals beyond
  reading each operation at an index is needed to join them.
-/
import Idealize.ShloMosaic.PureOps.Ideal
import Idealize.ShloMosaic.Lib.ValueIdx

noncomputable section

namespace Cert.PairHead

open Idealize.ShloMosaic Idealize.ShloMosaic.ValueIdx

abbrev SH : Shape := ⟨3, ![4, 512, 768]⟩
abbrev SW : Shape := ⟨2, ![48, 1536]⟩
abbrev SB : Shape := ⟨1, ![48]⟩
abbrev SWt : Shape := ⟨2, ![768, 48]⟩
abbrev SB2 : Shape := ⟨2, ![1, 48]⟩
abbrev SP : Shape := ⟨3, ![4, 512, 48]⟩
abbrev SO : Shape := ⟨4, ![4, 512, 512, 48]⟩

/-- A projection from a transposed weight block `wT : [768, 48]`: at `(n, l, c)` the sum over `k` of
    `h[n, l, k] · wT[k, c]`. -/
def projT (h : FVec Ideal SH .f32) (wT : FVec Ideal SWt .f32) : FVec Ideal SP .f32 :=
  fun x => ∑ k : Fin 768, h (ix3 (⟨(x 0).val, (x 0).isLt⟩ : Fin 4) (⟨(x 1).val, (x 1).isLt⟩ : Fin 512) k)
    * wT (ix2 k (⟨(x 2).val, (x 2).isLt⟩ : Fin 48))

/-- The broadcast sum of two projections and a bias row `b2 : [1, 48]`: at `(n, i, j, c)`
    `(p[n, i, c] + q[n, j, c]) + b2[0, c]`. -/
def pairSum (p q : FVec Ideal SP .f32) (b2 : FVec Ideal SB2 .f32) : FVec Ideal SO .f32 :=
  fun x => (p (ix3 (⟨(x 0).val, (x 0).isLt⟩ : Fin 4) (⟨(x 1).val, (x 1).isLt⟩ : Fin 512) (⟨(x 3).val, (x 3).isLt⟩ : Fin 48))
      + q (ix3 (⟨(x 0).val, (x 0).isLt⟩ : Fin 4) (⟨(x 2).val, (x 2).isLt⟩ : Fin 512) (⟨(x 3).val, (x 3).isLt⟩ : Fin 48)))
    + b2 (ix2 (0 : Fin 1) (⟨(x 3).val, (x 3).isLt⟩ : Fin 48))

/-- The left (`off = 0`) or right (`off = 768`) half of `W`, transposed: `[k, c] ↦ W[c, off + k]`. -/
def halfT (off : Nat) (hoff : off + 768 ≤ 1536) (W : FVec Ideal SW .f32) : FVec Ideal SWt .f32 :=
  fun y => W (ix2 (⟨(y 1).val, (y 1).isLt⟩ : Fin 48) (⟨off + (y 0).val, by have := (y 0).isLt; show off + (y 0).val < 1536; have h' : (y 0).val < 768 := this; omega⟩ : Fin 1536))

/-- The bias as a row: `[0, c] ↦ b[c]`. -/
def biasRow (b : FVec Ideal SB .f32) : FVec Ideal SB2 .f32 :=
  fun y => b (ix1 (⟨(y 1).val, (y 1).isLt⟩ : Fin 48))

/-- The whole head. -/
def head (h : FVec Ideal SH .f32) (W : FVec Ideal SW .f32) (b : FVec Ideal SB .f32) : FVec Ideal SO .f32 :=
  pairSum (projT h (halfT 0 (by decide) W)) (projT h (halfT 768 (by decide) W)) (biasRow b)

end Cert.PairHead

end
-- ==== Proof.Projection.lean ====
/-
  The first region: the two projections.

  Its body loads a block `[1, 128, 768]` of the activations and the two transposed weight blocks `[768, 48]` whole, and
  stores, for each weight block, the block `[1, 128, 48]` whose entry `(0, l, c)` is the sum over `k` of
  `x[0, l, k] · w[k, c]`: a matrix product into a zero accumulator, its operands' change of float format the identity on
  the extended reals. Point `(n, r)` of the grid `4 × 4` reads rows `128 r …` of batch `n` and writes block `(n, r, 0)` of
  each projection; the blocks tile the two arrays. So, whatever the region's arrays hold when it is entered, each
  projection ends at `projT` of the activations and its weight block.
-/
import proofs.«110676_j15977278341601_1_alg».proof.Proof.Gen.KernelIdeal.Frame
import proofs.«110676_j15977278341601_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Projection

open Cert.KernelIdeal Cert.KernelIdeal.Gen Cert.PairHead
open Idealize.ShloMosaic Idealize.ShloMosaic.TcCoe Idealize.ShloMosaic.ValueIdx Idealize.SL.Sem
open Idealize.ShloMosaic.Pipeline (Dat Cfg Window)

/-! ## The matrix product read at `(l, c)`

The product's operand indices at the output index `(l, c)` and the contraction index `k` are `(l, k)` and `(k, c)`:
the left operand's axis 0 and the right operand's axis 1 are kept, the other two contracted. -/

theorem lhs_axis0 (i : S128x48.Idx) (q : dot_S128x768_S768x48_S128x48_1_0_0_1_n_n.contr.Idx) :
    (dot_S128x768_S768x48_S128x48_1_0_0_1_n_n.lhsIdx i q 0).val = (i 0).val := by
  unfold DotDims.lhsIdx
  rw [dif_neg (show ¬(0 : Fin S128x768.rank) ∈ dot_S128x768_S768x48_S128x48_1_0_0_1_n_n.lhsBatch by decide), dif_pos (show (0 : Fin S128x768.rank) ∈ dot_S128x768_S768x48_S128x48_1_0_0_1_n_n.lhsNonContracting by decide)]
  rfl
theorem lhs_axis1 (i : S128x48.Idx) (q : dot_S128x768_S768x48_S128x48_1_0_0_1_n_n.contr.Idx) :
    (dot_S128x768_S768x48_S128x48_1_0_0_1_n_n.lhsIdx i q 1).val = (q ⟨0, by decide⟩).val :=
  dot_S128x768_S768x48_S128x48_1_0_0_1_n_n.lhsIdx_val_of_single rfl i q
theorem rhs_axis0 (i : S128x48.Idx) (q : dot_S128x768_S768x48_S128x48_1_0_0_1_n_n.contr.Idx) :
    (dot_S128x768_S768x48_S128x48_1_0_0_1_n_n.rhsIdx i q 0).val = (q ⟨0, by decide⟩).val :=
  dot_S128x768_S768x48_S128x48_1_0_0_1_n_n.rhsIdx_val_of_single rfl i q
theorem rhs_axis1 (i : S128x48.Idx) (q : dot_S128x768_S768x48_S128x48_1_0_0_1_n_n.contr.Idx) :
    (dot_S128x768_S768x48_S128x48_1_0_0_1_n_n.rhsIdx i q 1).val = (i 1).val := by
  unfold DotDims.rhsIdx
  rw [dif_neg (show ¬(1 : Fin S768x48.rank) ∈ dot_S128x768_S768x48_S128x48_1_0_0_1_n_n.rhsBatch by decide), dif_pos (show (1 : Fin S768x48.rank) ∈ dot_S128x768_S768x48_S128x48_1_0_0_1_n_n.rhsNonContracting by decide)]
  rfl

/-- Into the zero accumulator the product at `(l, c)` is the plain sum of products over the 768 contracted positions. -/
theorem matmul_at (a : FVec Ideal S128x768 .bf16) (b : FVec Ideal S768x48 .bf16) (l : Fin 128) (c : Fin 48) :
    matmul dot_S128x768_S768x48_S128x48_1_0_0_1_n_n none a b (constant (F := Ideal) S128x48 .f32 0x00000000#32) (ix2 l c)
      = ∑ k : Fin 768, a (ix2 l k) * b (ix2 k c) := by
  simp only [matmul]
  rw [Ideal.matmul_constant_zero_apply, ← Equiv.sum_comp (ValueIdx.contrEquiv1 dot_S128x768_S768x48_S128x48_1_0_0_1_n_n 768 rfl rfl).symm]
  refine Finset.sum_congr rfl fun k _ => ?_
  have hk := ValueIdx.contrEquiv1_symm_val dot_S128x768_S768x48_S128x48_1_0_0_1_n_n 768 rfl rfl k
  have el : dot_S128x768_S768x48_S128x48_1_0_0_1_n_n.lhsIdx (ix2 l c) ((ValueIdx.contrEquiv1 dot_S128x768_S768x48_S128x48_1_0_0_1_n_n 768 rfl rfl).symm k) = ix2 l k := funext fun a => Fin.ext (by
    match a with
    | ⟨0, _⟩ => exact lhs_axis0 _ _
    | ⟨1, _⟩ => exact (lhs_axis1 _ _).trans hk)
  have er : dot_S128x768_S768x48_S128x48_1_0_0_1_n_n.rhsIdx (ix2 l c) ((ValueIdx.contrEquiv1 dot_S128x768_S768x48_S128x48_1_0_0_1_n_n 768 rfl rfl).symm k) = ix2 k c := funext fun a => Fin.ext (by
    match a with
    | ⟨0, _⟩ => exact (rhs_axis0 _ _).trans hk
    | ⟨1, _⟩ => exact rhs_axis1 _ _)
  rw [el, er]

/-- The first stored block at `(0, l, c)`. -/
theorem k0_pay2_apply (x0 : FVec Ideal S1x128x768 .f32) (x1 : FVec Ideal S768x48 .f32) (u : Fin 1) (l : Fin 128) (c : Fin 48) :
    k0_pay2 (F := Ideal) x0 x1 (ix3 u l c) = ∑ k : Fin 768, x0 (ix3 (0 : Fin 1) l k) * x1 (ix2 k c) := by
  unfold k0_pay2 k0_pay1
  refine (shapeCast_apply _ _ (ix3 u l c) (ix2 l c) ?_).trans ?_
  · rw [Shape.rowMajor_val_two, Shape.rowMajor_val_three]
    show l.val * 48 + c.val = (u.val * 128 + l.val) * 48 + c.val
    have := u.isLt
    omega
  refine (matmul_at _ _ l c).trans ?_
  refine Finset.sum_congr rfl fun k _ => ?_
  refine congrArg₂ (· * ·) ?_ ?_
  · show shapeCast S128x768 x0 shapeCasts_S1x128x768_S128x768 (ix2 l k) = _
    refine shapeCast_apply _ _ (ix2 l k) (ix3 (0 : Fin 1) l k) ?_
    rw [Shape.rowMajor_val_three, Shape.rowMajor_val_two]
    show (0 * 128 + l.val) * 768 + k.val = l.val * 768 + k.val
    omega
  · show shapeCast S768x48 x1 shapeCasts_S768x48_S768x48 (ix2 k c) = _
    rw [shapeCast_self]

/-- The second stored block is the same function of its weight block. -/
theorem k0_pay3_apply (x0 : FVec Ideal S1x128x768 .f32) (x1 : FVec Ideal S768x48 .f32) (u : Fin 1) (l : Fin 128) (c : Fin 48) :
    k0_pay3 (F := Ideal) x0 x1 (ix3 u l c) = ∑ k : Fin 768, x0 (ix3 (0 : Fin 1) l k) * x1 (ix2 k c) :=
  k0_pay2_apply x0 x1 u l c

/-! ## The index maps over the grid -/

theorem hz3 : (![0, 0, 0] : Fin 3 → Nat) = fun _ => 0 := funext fun a => by fin_cases a <;> rfl
theorem hz2 : (![0, 0] : Fin 2 → Nat) = fun _ => 0 := funext fun a => by fin_cases a <;> rfl

/-- Decided over the 16 points: the activations' block follows each projection's block on axes 0 and 1, the weight blocks
    stay put, and the projections' blocks move together. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_4.index t (0 : Fin 3) = win0_3.index t (0 : Fin 3) ∧ win0_4.index t (1 : Fin 3) = win0_3.index t (1 : Fin 3)
    ∧ win0_4.index t (2 : Fin 3) = 0
    ∧ win0_3.index t (0 : Fin 3) ≤ 3 ∧ win0_3.index t (2 : Fin 3) = 0 :=
  (by decide +kernel : ∀ t : Fin grid0.N, _)

/-- Every block of a projection is some point's. -/
theorem idx_onto : ∀ (q0 : Fin 4) (q1 : Fin 4), ∃ t : Fin cfg0.N,
    win0_3.index t = ![q0.val, q1.val, 0] ∧ win0_4.index t = ![q0.val, q1.val, 0] :=
  (by decide +kernel : ∀ (q0 : Fin 4) (q1 : Fin 4), ∃ t : Fin grid0.N, win0_3.index t = ![q0.val, q1.val, 0] ∧ win0_4.index t = ![q0.val, q1.val, 0])

variable (V : (c : Dev nD) → (b : Ref sig .tc) → Buf (Elt Ideal) ((c : Thread nD τ).loc b))

/-- The three arrays the region is entered with, at their literal types. -/
abbrev hArr (c : Dev nD) : FVec Ideal S4x512x768 .f32 := V c main_arg0
abbrev wArr3 (c : Dev nD) : FVec Ideal S768x48 .f32 := V c main_v2
abbrev wArr4 (c : Dev nD) : FVec Ideal S768x48 .f32 := V c main_v3

/-! ## Output window 3: the projection against `main_v2` -/

theorem flushed3_eq (c : Dev nD) (t : Fin cfg0.N) :
    (dat0 V c).flushed 3 t
      = ((cfg0.win 3).blk t).view.read (Elt Ideal) (projT (V c main_arg0) (V c main_v2)) := by
  show (cfg0.win 3).cut (grid0.coords t) ((dat0 V c).after 3 t) = _
  rw [after0_3]
  unfold out0_3
  rw [View.canon_unit_zero hz3]
  simp only [View.ld_unit_zero (S := S1x128x768) hz3, View.ld_unit_zero (S := S768x48) hz2]
  obtain ⟨e0, e1, e2, e3, e4, f0, f1, g0, g1, g2, b0, b1⟩ := idx_facts t
  refine funext fun (y : S1x128x48.Idx) => ?_
  obtain ⟨u, l, cc, rfl⟩ : ∃ (u : Fin 1) (l : Fin 128) (cc : Fin 48), y = ix3 u l cc := ⟨y 0, y 1, y 2, eq_ix3 y⟩
  show k0_pay2 (F := Ideal) (iblk0 V c 0 t) (iblk0 V c 1 t) (ix3 u l cc)
      = projT (V c main_arg0) (V c main_v2) (((cfg0.win 3).blk t).view.emb (ix3 u l cc))
  refine (k0_pay2_apply _ _ u l cc).trans ?_
  unfold projT
  refine Finset.sum_congr rfl fun k _ => ?_
  show hArr V c (((cfg0.win 0).blk t).view.emb (ix3 (0 : Fin 1) l k))
        * wArr3 V c (((cfg0.win 1).blk t).view.emb (ix2 k cc)) = _
  have hu := u.isLt
  refine congrArg₂ (· * ·) (congrArg (hArr V c) ?_) (congrArg (wArr3 V c) ?_)
  · funext a; apply Fin.ext
    match a with
    | ⟨0, _⟩ => show win0_0.index t (0 : Fin 3) * 1 + 1 * 0 = win0_3.index t (0 : Fin 3) * 1 + 1 * u.val; omega
    | ⟨1, _⟩ => show win0_0.index t (1 : Fin 3) * 128 + 1 * l.val = win0_3.index t (1 : Fin 3) * 128 + 1 * l.val; omega
    | ⟨2, _⟩ => show win0_0.index t (2 : Fin 3) * 768 + 1 * k.val = k.val; omega
  · funext a; apply Fin.ext
    match a with
    | ⟨0, _⟩ => show win0_1.index t (0 : Fin 2) * 768 + 1 * k.val = k.val; omega
    | ⟨1, _⟩ => show win0_1.index t (1 : Fin 2) * 48 + 1 * cc.val = win0_3.index t (2 : Fin 3) * 48 + 1 * cc.val; omega

/-- An index of the projection is in point `t`'s block iff each coordinate is in the block's range on its axis. -/
theorem mem_blk3 (t : Fin cfg0.N) (x : S4x512x48.Idx) :
    x ∈ ((cfg0.win 3).blk t).view.set ↔ ∀ a : Fin 3, win0_3.index t a * S1x128x48.size a ≤ (x a).val
      ∧ (x a).val < win0_3.index t a * S1x128x48.size a + S1x128x48.size a := by
  show x ∈ ((View.whole main_v5_0).slice (win0_3.rect t)).set ↔ _
  rw [View.set_slice_whole, Rect.mem_set_unit]
  exact Iff.rfl

/-- Every index of the projection is in some point's block: batch `n`, row block `l / 128`. -/
theorem cover3 (x : S4x512x48.Idx) :
    ∃ t : Fin cfg0.N, (cfg0.win 3).flush t = true ∧ x ∈ ((cfg0.win 3).blk t).view.set := by
  have h0 : (x 0).val < 4 := (x 0).isLt
  have h1 : (x 1).val < 512 := (x 1).isLt
  have h2 : (x 2).val < 48 := (x 2).isLt
  obtain ⟨t, ht⟩ := idx_onto ⟨(x 0).val, h0⟩ ⟨(x 1).val / 128, by omega⟩
  have q0 : win0_3.index t (0 : Fin 3) = (x 0).val := congrFun ht.1 0
  have q1 : win0_3.index t (1 : Fin 3) = (x 1).val / 128 := congrFun ht.1 1
  have q2 : win0_3.index t (2 : Fin 3) = 0 := congrFun ht.1 2
  refine ⟨t, flush0_3 t, ?_⟩
  rw [mem_blk3]
  intro a
  match a with
  | ⟨0, _⟩ => show win0_3.index t (0 : Fin 3) * 1 ≤ (x 0).val ∧ (x 0).val < win0_3.index t (0 : Fin 3) * 1 + 1; omega
  | ⟨1, _⟩ => show win0_3.index t (1 : Fin 3) * 128 ≤ (x 1).val ∧ (x 1).val < win0_3.index t (1 : Fin 3) * 128 + 128; omega
  | ⟨2, _⟩ => show win0_3.index t (2 : Fin 3) * 48 ≤ (x 2).val ∧ (x 2).val < win0_3.index t (2 : Fin 3) * 48 + 48; omega

/-- The array after the region: the projection of the activations against the transposed block the region was entered with. -/
theorem final3 (c : Dev nD) : (dat0 V c).arrAt 3 cfg0.N = projT (V c main_arg0) (V c main_v2) :=
  (dat0 V c).arrAt_eq_of_cover 3 _ (fun t _ => flushed3_eq V c t) cover3

/-! ## Output window 4: the projection against `main_v3` -/

theorem flushed4_eq (c : Dev nD) (t : Fin cfg0.N) :
    (dat0 V c).flushed 4 t
      = ((cfg0.win 4).blk t).view.read (Elt Ideal) (projT (V c main_arg0) (V c main_v3)) := by
  show (cfg0.win 4).cut (grid0.coords t) ((dat0 V c).after 4 t) = _
  rw [after0_4]
  unfold out0_4
  rw [View.canon_unit_zero hz3]
  simp only [View.ld_unit_zero (S := S1x128x768) hz3, View.ld_unit_zero (S := S768x48) hz2]
  obtain ⟨e0, e1, e2, e3, e4, f0, f1, g0, g1, g2, b0, b1⟩ := idx_facts t
  refine funext fun (y : S1x128x48.Idx) => ?_
  obtain ⟨u, l, cc, rfl⟩ : ∃ (u : Fin 1) (l : Fin 128) (cc : Fin 48), y = ix3 u l cc := ⟨y 0, y 1, y 2, eq_ix3 y⟩
  show k0_pay3 (F := Ideal) (iblk0 V c 0 t) (iblk0 V c 2 t) (ix3 u l cc)
      = projT (V c main_arg0) (V c main_v3) (((cfg0.win 4).blk t).view.emb (ix3 u l cc))
  refine (k0_pay3_apply _ _ u l cc).trans ?_
  unfold projT
  refine Finset.sum_congr rfl fun k _ => ?_
  show hArr V c (((cfg0.win 0).blk t).view.emb (ix3 (0 : Fin 1) l k))
        * wArr4 V c (((cfg0.win 2).blk t).view.emb (ix2 k cc)) = _
  have hu := u.isLt
  refine congrArg₂ (· * ·) (congrArg (hArr V c) ?_) (congrArg (wArr4 V c) ?_)
  · funext a; apply Fin.ext
    match a with
    | ⟨0, _⟩ => show win0_0.index t (0 : Fin 3) * 1 + 1 * 0 = win0_4.index t (0 : Fin 3) * 1 + 1 * u.val; omega
    | ⟨1, _⟩ => show win0_0.index t (1 : Fin 3) * 128 + 1 * l.val = win0_4.index t (1 : Fin 3) * 128 + 1 * l.val; omega
    | ⟨2, _⟩ => show win0_0.index t (2 : Fin 3) * 768 + 1 * k.val = k.val; omega
  · funext a; apply Fin.ext
    match a with
    | ⟨0, _⟩ => show win0_2.index t (0 : Fin 2) * 768 + 1 * k.val = k.val; omega
    | ⟨1, _⟩ => show win0_2.index t (1 : Fin 2) * 48 + 1 * cc.val = win0_4.index t (2 : Fin 3) * 48 + 1 * cc.val; omega

/-- An index of the projection is in point `t`'s block iff each coordinate is in the block's range on its axis. -/
theorem mem_blk4 (t : Fin cfg0.N) (x : S4x512x48.Idx) :
    x ∈ ((cfg0.win 4).blk t).view.set ↔ ∀ a : Fin 3, win0_4.index t a * S1x128x48.size a ≤ (x a).val
      ∧ (x a).val < win0_4.index t a * S1x128x48.size a + S1x128x48.size a := by
  show x ∈ ((View.whole main_v5_1).slice (win0_4.rect t)).set ↔ _
  rw [View.set_slice_whole, Rect.mem_set_unit]
  exact Iff.rfl

/-- Every index of the projection is in some point's block: batch `n`, row block `l / 128`. -/
theorem cover4 (x : S4x512x48.Idx) :
    ∃ t : Fin cfg0.N, (cfg0.win 4).flush t = true ∧ x ∈ ((cfg0.win 4).blk t).view.set := by
  have h0 : (x 0).val < 4 := (x 0).isLt
  have h1 : (x 1).val < 512 := (x 1).isLt
  have h2 : (x 2).val < 48 := (x 2).isLt
  obtain ⟨t, ht⟩ := idx_onto ⟨(x 0).val, h0⟩ ⟨(x 1).val / 128, by omega⟩
  have q0 : win0_4.index t (0 : Fin 3) = (x 0).val := congrFun ht.2 0
  have q1 : win0_4.index t (1 : Fin 3) = (x 1).val / 128 := congrFun ht.2 1
  have q2 : win0_4.index t (2 : Fin 3) = 0 := congrFun ht.2 2
  refine ⟨t, flush0_4 t, ?_⟩
  rw [mem_blk4]
  intro a
  match a with
  | ⟨0, _⟩ => show win0_4.index t (0 : Fin 3) * 1 ≤ (x 0).val ∧ (x 0).val < win0_4.index t (0 : Fin 3) * 1 + 1; omega
  | ⟨1, _⟩ => show win0_4.index t (1 : Fin 3) * 128 ≤ (x 1).val ∧ (x 1).val < win0_4.index t (1 : Fin 3) * 128 + 128; omega
  | ⟨2, _⟩ => show win0_4.index t (2 : Fin 3) * 48 ≤ (x 2).val ∧ (x 2).val < win0_4.index t (2 : Fin 3) * 48 + 48; omega

/-- The array after the region: the projection of the activations against the transposed block the region was entered with. -/
theorem final4 (c : Dev nD) : (dat0 V c).arrAt 4 cfg0.N = projT (V c main_arg0) (V c main_v3) :=
  (dat0 V c).arrAt_eq_of_cover 4 _ (fun t _ => flushed4_eq V c t) cover4

end Cert.KernelIdeal.Projection

end
-- ==== Proof.BroadcastSum.lean ====
/-
  The second region: the broadcast sum.

  Its body loads a block `[1, 256, 48]` of the first projection, a block `[1, 128, 48]` of the second and the bias row
  `[1, 48]`, and stores the block `[1, 256, 128, 48]` whose entry `(0, i, j, c)` is `(p[0, i, c] + q[0, j, c]) + b[0, c]`.
  Point `(n, r, s)` of the grid `4 × 2 × 4` reads rows `256 r …` of batch `n` of the first projection and rows `128 s …`
  of the second, and writes block `(n, r, s, 0)` of the result; the blocks tile the result array. So, whatever the
  three arrays hold when the region is entered, the result array ends at `pairSum` of them.
-/
import proofs.«110676_j15977278341601_1_alg».proof.Proof.Gen.KernelIdeal.Frame
import proofs.«110676_j15977278341601_1_alg».proof.Proof.Spec
import Idealize.ShloMosaic.Lib.Pipeline.Value
import Idealize.ShloMosaic.Lib.ValueIdx

set_option maxRecDepth 16384

noncomputable section

namespace Cert.KernelIdeal.BroadcastSum

open Cert.KernelIdeal Cert.KernelIdeal.Gen Cert.PairHead
open Idealize.ShloMosaic Idealize.ShloMosaic.TcCoe Idealize.ShloMosaic.ValueIdx Idealize.SL.Sem
open Idealize.ShloMosaic.Pipeline (Dat Cfg Window)

/-! ## The body's three summands, each read at `(i, j, c)` -/

section Layout
variable {α : Type}

/-- A row block `[1, 256, 48]`, viewed `[256, 48]`, then `[256, 1, 48]`, broadcast along the middle axis. -/
theorem rows_apply (x : S1x256x48.Idx → α) (i : Fin 256) (j : Fin 128) (c : Fin 48) :
    broadcastTo S256x128x48 (shapeCast S256x1x48 (shapeCast S256x48 x shapeCasts_S1x256x48_S256x48) shapeCasts_S256x48_S256x1x48)
      broadcasts_S256x1x48_S256x128x48 (ix3 i j c) = x (ix3 (0 : Fin 1) i c) := by
  refine (broadcastTo_apply _ _ (ix3 i j c) (ix3 i (0 : Fin 1) c) (fun a => ?_)).trans ?_
  · match a with
    | ⟨0, _⟩ => show i.val = if (256 : Nat) = 1 then 0 else i.val; rw [if_neg (by decide)]
    | ⟨1, _⟩ => show (0 : Nat) = if (1 : Nat) = 1 then 0 else j.val; rw [if_pos rfl]
    | ⟨2, _⟩ => show c.val = if (48 : Nat) = 1 then 0 else c.val; rw [if_neg (by decide)]
  refine (shapeCast_apply _ _ (ix3 i (0 : Fin 1) c) (ix2 i c) ?_).trans ?_
  · rw [Shape.rowMajor_val_two, Shape.rowMajor_val_three]
    show i.val * 48 + c.val = (i.val * 1 + 0) * 48 + c.val
    omega
  refine shapeCast_apply _ _ (ix2 i c) (ix3 (0 : Fin 1) i c) ?_
  rw [Shape.rowMajor_val_three, Shape.rowMajor_val_two]
  show (0 * 256 + i.val) * 48 + c.val = i.val * 48 + c.val
  omega

/-- A row block `[1, 128, 48]`, viewed `[128, 48]` and back, broadcast along the leading axis. -/
theorem cols_apply (x : S1x128x48.Idx → α) (i : Fin 256) (j : Fin 128) (c : Fin 48) :
    broadcastTo S256x128x48 (shapeCast S1x128x48 (shapeCast S128x48 x shapeCasts_S1x128x48_S128x48) shapeCasts_S128x48_S1x128x48)
      broadcasts_S1x128x48_S256x128x48 (ix3 i j c) = x (ix3 (0 : Fin 1) j c) := by
  rw [shapeCast_shapeCast]
  refine broadcastTo_apply _ _ (ix3 i j c) (ix3 (0 : Fin 1) j c) (fun a => ?_)
  match a with
  | ⟨0, _⟩ => show (0 : Nat) = if (1 : Nat) = 1 then 0 else i.val; rw [if_pos rfl]
  | ⟨1, _⟩ => show j.val = if (128 : Nat) = 1 then 0 else j.val; rw [if_neg (by decide)]
  | ⟨2, _⟩ => show c.val = if (48 : Nat) = 1 then 0 else c.val; rw [if_neg (by decide)]

/-- The bias row `[1, 48]`, viewed `[1, 1, 48]`, broadcast along the two leading axes. -/
theorem bias_apply (x : S1x48.Idx → α) (i : Fin 256) (j : Fin 128) (c : Fin 48) :
    broadcastTo S256x128x48 (shapeCast S1x1x48 (shapeCast S1x48 x shapeCasts_S1x48_S1x48) shapeCasts_S1x48_S1x1x48)
      broadcasts_S1x1x48_S256x128x48 (ix3 i j c) = x (ix2 (0 : Fin 1) c) := by
  rw [shapeCast_self]
  refine (broadcastTo_apply _ _ (ix3 i j c) (ix3 (0 : Fin 1) (0 : Fin 1) c) (fun a => ?_)).trans ?_
  · match a with
    | ⟨0, _⟩ => show (0 : Nat) = if (1 : Nat) = 1 then 0 else i.val; rw [if_pos rfl]
    | ⟨1, _⟩ => show (0 : Nat) = if (1 : Nat) = 1 then 0 else j.val; rw [if_pos rfl]
    | ⟨2, _⟩ => show c.val = if (48 : Nat) = 1 then 0 else c.val; rw [if_neg (by decide)]
  refine shapeCast_apply _ _ (ix3 (0 : Fin 1) (0 : Fin 1) c) (ix2 (0 : Fin 1) c) ?_
  rw [Shape.rowMajor_val_two, Shape.rowMajor_val_three]
  show 0 * 48 + c.val = (0 * 1 + 0) * 48 + c.val
  omega

end Layout

/-- The stored block at `(0, i, j, c)`: the two loaded rows' entries added, then the bias entry. -/
theorem pay_apply (x0 : FVec Ideal S1x256x48 .f32) (x1 : FVec Ideal S1x128x48 .f32) (x2 : FVec Ideal S1x48 .f32)
    (u : Fin 1) (i : Fin 256) (j : Fin 128) (c : Fin 48) :
    k1_pay1 (F := Ideal) x0 x1 x2 (ix4 u i j c)
      = (x0 (ix3 (0 : Fin 1) i c) + x1 (ix3 (0 : Fin 1) j c)) + x2 (ix2 (0 : Fin 1) c) := by
  unfold k1_pay1
  refine (shapeCast_apply _ _ (ix4 u i j c) (ix3 i j c) ?_).trans ?_
  · rw [Shape.rowMajor_val_three, Shape.rowMajor_val_four]
    show (i.val * 128 + j.val) * 48 + c.val = (((u.val * 256 + i.val) * 128 + j.val) * 48 + c.val)
    have := u.isLt
    omega
  exact congrArg₂ (· + ·) (congrArg₂ (· + ·) (rows_apply x0 i j c) (cols_apply x1 i j c)) (bias_apply x2 i j c)

/-! ## The index maps over the grid -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- Decided over the 32 points: the first projection's block follows the result block's axes 0 and 1, the second's its
    axes 0 and 2, the bias block stays put, and the result's block indices stay in range. -/
theorem idx_facts : ∀ t : Fin cfg1.N,
    win1_0.index t (0 : Fin 3) = win1_3.index t (0 : Fin 4) ∧ win1_0.index t (1 : Fin 3) = win1_3.index t (1 : Fin 4)
    ∧ win1_0.index t (2 : Fin 3) = 0
    ∧ win1_1.index t (0 : Fin 3) = win1_3.index t (0 : Fin 4) ∧ win1_1.index t (1 : Fin 3) = win1_3.index t (2 : Fin 4)
    ∧ win1_1.index t (2 : Fin 3) = 0
    ∧ win1_2.index t (0 : Fin 2) = 0 ∧ win1_2.index t (1 : Fin 2) = 0
    ∧ win1_3.index t (0 : Fin 4) ≤ 3 ∧ win1_3.index t (1 : Fin 4) ≤ 1 ∧ win1_3.index t (2 : Fin 4) ≤ 3
    ∧ win1_3.index t (3 : Fin 4) = 0 :=
  (by decide +kernel : ∀ t : Fin grid1.N, _)

/-- Every block of the result is some point's. -/
theorem idx_onto : ∀ (q0 : Fin 4) (q1 : Fin 2) (q2 : Fin 4), ∃ t : Fin cfg1.N, win1_3.index t = ![q0.val, q1.val, q2.val, 0] :=
  (by decide +kernel : ∀ (q0 : Fin 4) (q1 : Fin 2) (q2 : Fin 4), ∃ t : Fin grid1.N, win1_3.index t = ![q0.val, q1.val, q2.val, 0])

/-! ## What a point writes back, and the array after the run -/

variable (V : (c : Dev nD) → (b : Ref sig .tc) → Buf (Elt Ideal) ((c : Thread nD τ).loc b))

/-- The three arrays the region is entered with, at their literal types. -/
abbrev pArr (c : Dev nD) : FVec Ideal S4x512x48 .f32 := V c main_v5_0
abbrev qArr (c : Dev nD) : FVec Ideal S4x512x48 .f32 := V c main_v5_1
abbrev bArr (c : Dev nD) : FVec Ideal S1x48 .f32 := V c main_v4

theorem flushed_eq (c : Dev nD) (t : Fin cfg1.N) :
    (dat1 V c).flushed 3 t
      = ((cfg1.win 3).blk t).view.read (Elt Ideal) (pairSum (V c main_v5_0) (V c main_v5_1) (V c main_v4)) := by
  show (cfg1.win 3).cut (grid1.coords t) ((dat1 V c).after 3 t) = _
  rw [after1_3]
  unfold out1_3
  rw [View.canon_unit_zero hz4]
  simp only [View.ld_unit_zero (S := S1x256x48) hz3, View.ld_unit_zero (S := S1x128x48) hz3, View.ld_unit_zero (S := S1x48) hz2]
  obtain ⟨e0, e1, e2, e3, e4, e5, e6, e7, b0, b1, b2, b3⟩ := idx_facts t
  refine funext fun (y : S1x256x128x48.Idx) => ?_
  obtain ⟨u, i, j, cc, rfl⟩ : ∃ (u : Fin 1) (i : Fin 256) (j : Fin 128) (cc : Fin 48), y = ix4 u i j cc :=
    ⟨y 0, y 1, y 2, y 3, eq_ix4 y⟩
  show k1_pay1 (F := Ideal) (iblk1 V c 0 t) (iblk1 V c 1 t) (iblk1 V c 2 t) (ix4 u i j cc)
      = pairSum (V c main_v5_0) (V c main_v5_1) (V c main_v4) (((cfg1.win 3).blk t).view.emb (ix4 u i j cc))
  refine (pay_apply _ _ _ u i j cc).trans ?_
  show pArr V c (((cfg1.win 0).blk t).view.emb (ix3 (0 : Fin 1) i cc))
        + qArr V c (((cfg1.win 1).blk t).view.emb (ix3 (0 : Fin 1) j cc))
        + bArr V c (((cfg1.win 2).blk t).view.emb (ix2 (0 : Fin 1) cc)) = _
  unfold pairSum
  have hu := u.isLt
  refine congrArg₂ (· + ·) (congrArg₂ (· + ·) (congrArg (pArr V c) ?_) (congrArg (qArr V c) ?_)) (congrArg (bArr V c) ?_)
  · funext a; apply Fin.ext
    match a with
    | ⟨0, _⟩ => show win1_0.index t (0 : Fin 3) * 1 + 1 * 0 = win1_3.index t (0 : Fin 4) * 1 + 1 * u.val; omega
    | ⟨1, _⟩ => show win1_0.index t (1 : Fin 3) * 256 + 1 * i.val = win1_3.index t (1 : Fin 4) * 256 + 1 * i.val; omega
    | ⟨2, _⟩ => show win1_0.index t (2 : Fin 3) * 48 + 1 * cc.val = win1_3.index t (3 : Fin 4) * 48 + 1 * cc.val; omega
  · funext a; apply Fin.ext
    match a with
    | ⟨0, _⟩ => show win1_1.index t (0 : Fin 3) * 1 + 1 * 0 = win1_3.index t (0 : Fin 4) * 1 + 1 * u.val; omega
    | ⟨1, _⟩ => show win1_1.index t (1 : Fin 3) * 128 + 1 * j.val = win1_3.index t (2 : Fin 4) * 128 + 1 * j.val; omega
    | ⟨2, _⟩ => show win1_1.index t (2 : Fin 3) * 48 + 1 * cc.val = win1_3.index t (3 : Fin 4) * 48 + 1 * cc.val; omega
  · funext a; apply Fin.ext
    match a with
    | ⟨0, _⟩ => show win1_2.index t (0 : Fin 2) * 1 + 1 * 0 = 0; omega
    | ⟨1, _⟩ => show win1_2.index t (1 : Fin 2) * 48 + 1 * cc.val = win1_3.index t (3 : Fin 4) * 48 + 1 * cc.val; omega

/-- An index of the result array is in point `t`'s block iff each coordinate is in the block's range on its axis. -/
theorem mem_blk (t : Fin cfg1.N) (x : S4x512x512x48.Idx) :
    x ∈ ((cfg1.win 3).blk t).view.set ↔ ∀ a : Fin 4, win1_3.index t a * S1x256x128x48.size a ≤ (x a).val
      ∧ (x a).val < win1_3.index t a * S1x256x128x48.size a + S1x256x128x48.size a := by
  show x ∈ ((View.whole main_v6).slice (win1_3.rect t)).set ↔ _
  rw [View.set_slice_whole, Rect.mem_set_unit]
  exact Iff.rfl

/-- Every index of the result array is in some point's block: batch `n`, row block `i / 256`, column block `j / 128`. -/
theorem cover (x : S4x512x512x48.Idx) :
    ∃ t : Fin cfg1.N, (cfg1.win 3).flush t = true ∧ x ∈ ((cfg1.win 3).blk t).view.set := by
  have h0 : (x 0).val < 4 := (x 0).isLt
  have h1 : (x 1).val < 512 := (x 1).isLt
  have h2 : (x 2).val < 512 := (x 2).isLt
  have h3 : (x 3).val < 48 := (x 3).isLt
  obtain ⟨t, ht⟩ := idx_onto ⟨(x 0).val, h0⟩ ⟨(x 1).val / 256, by omega⟩ ⟨(x 2).val / 128, by omega⟩
  have q0 : win1_3.index t (0 : Fin 4) = (x 0).val := congrFun ht 0
  have q1 : win1_3.index t (1 : Fin 4) = (x 1).val / 256 := congrFun ht 1
  have q2 : win1_3.index t (2 : Fin 4) = (x 2).val / 128 := congrFun ht 2
  have q3 : win1_3.index t (3 : Fin 4) = 0 := congrFun ht 3
  refine ⟨t, flush1_3 t, ?_⟩
  rw [mem_blk]
  intro a
  match a with
  | ⟨0, _⟩ => show win1_3.index t (0 : Fin 4) * 1 ≤ (x 0).val ∧ (x 0).val < win1_3.index t (0 : Fin 4) * 1 + 1; omega
  | ⟨1, _⟩ => show win1_3.index t (1 : Fin 4) * 256 ≤ (x 1).val ∧ (x 1).val < win1_3.index t (1 : Fin 4) * 256 + 256; omega
  | ⟨2, _⟩ => show win1_3.index t (2 : Fin 4) * 128 ≤ (x 2).val ∧ (x 2).val < win1_3.index t (2 : Fin 4) * 128 + 128; omega
  | ⟨3, _⟩ => show win1_3.index t (3 : Fin 4) * 48 ≤ (x 3).val ∧ (x 3).val < win1_3.index t (3 : Fin 4) * 48 + 48; omega

/-- The result array after the region: the broadcast sum of the three arrays the region was entered with. -/
theorem final (c : Dev nD) :
    (dat1 V c).arrAt 3 cfg1.N = pairSum (V c main_v5_0) (V c main_v5_1) (V c main_v4) :=
  (dat1 V c).arrAt_eq_of_cover 3 _ (fun t _ => flushed_eq V c t) cover

end Cert.KernelIdeal.BroadcastSum

end
-- ==== Proof.KernelValue.lean ====
/-
  The kernel's result array: `head` of the three arguments.

  Before the first region the host operations leave the left and right halves of `W` transposed (`[k, c] ↦ W[c, k]` and
  `[k, c] ↦ W[c, 768 + k]`) and the bias as a row `[1, 48]`; the activations are as launched. The first region leaves the
  two projections of the activations against those blocks (`Projection.final3`, `final4`) and touches nothing else, so the
  second region is entered with those projections and the bias row, and leaves their broadcast sum in the result array
  (`BroadcastSum.final`). Composed, the result array after @main is `head` of the launch contents of the arguments.
-/
import proofs.«110676_j15977278341601_1_alg».proof.Proof.KernelRun
import proofs.«110676_j15977278341601_1_alg».proof.Proof.Projection
import proofs.«110676_j15977278341601_1_alg».proof.Proof.BroadcastSum
import Idealize.ShloMosaic.Lib.StableHlo.Run

set_option maxRecDepth 16384

noncomputable section

namespace Cert.KernelIdeal.KernelValue

open Cert.KernelIdeal Cert.KernelIdeal.Gen Cert.PairHead
open Idealize.ShloMosaic Idealize.ShloMosaic.TcCoe Idealize.ShloMosaic.ValueIdx Idealize.SL.Sem Idealize.ShloMosaic.StableHlo

/-! ## The host operations, read at an index -/

/-- A slice of the columns `off … off + 767` of `W`, transposed, is `halfT off W`. -/
theorem transpose_slice (off : Nat) (hoff : off + 768 ≤ 1536) (W : FVec Ideal S48x1536 .f32)
    (hs : S48x1536.Slices ![0, off] S48x768) (ht : S48x768.Transposes [1, 0] S768x48) :
    transpose S768x48 [1, 0] (extractStridedSlice S48x768 ![0, off] W hs) ht = halfT off hoff W := by
  funext y
  refine (transpose_apply [1, 0] _ ht y (ix2 (⟨(y 1).val, (y 1).isLt⟩ : Fin 48) (⟨(y 0).val, (y 0).isLt⟩ : Fin 768)) (fun b => ?_)).trans ?_
  · match b with
    | ⟨0, _⟩ => rfl
    | ⟨1, _⟩ => rfl
  unfold halfT
  refine extractStridedSlice_apply ![0, off] W hs _ _ (fun a => ?_)
  match a with
  | ⟨0, _⟩ => show (y 1).val = 0 + (y 1).val; omega
  | ⟨1, _⟩ => show off + (y 0).val = off + (y 0).val; rfl

/-- The bias `[48]` viewed as a row `[1, 48]`. -/
theorem reshape_row (b : FVec Ideal S48 .f32) (h : S48.ShapeCasts S1x48) : shapeCast S1x48 b h = biasRow b := by
  funext y
  unfold biasRow
  refine shapeCast_apply _ _ y _ ?_
  rw [Shape.rowMajor_val_one, Shape.rowMajor_val_two]
  have h0 : (y 0).val < 1 := (y 0).isLt
  show (y 1).val = (y 0).val * 48 + (y 1).val
  omega

variable (m : (ℓ : Loc nD τ sig) → Buf (Elt Ideal) ℓ) (ρ : Dev nD → PrngReg)

/-- The first region is entered with the activations as launched, -/
theorem entry_h (c : Dev nD) : V1 m ρ c main_arg0 = m ((c : Thread nD τ).loc main_arg0) := by
  show StableHlo.after hostOps0 (W0 m ρ c) (Proc.devRef .tc main_arg0) = _
  dsimp only [hostOps0]
  after_results

/-- the left half of `W` transposed, -/
theorem entry_wl (c : Dev nD) :
    (V1 m ρ c main_v2 : FVec Ideal S768x48 .f32) = halfT 0 (by decide) (m ((c : Thread nD τ).loc main_arg1)) := by
  have e : (V1 m ρ c main_v2 : FVec Ideal S768x48 .f32)
      = transpose S768x48 [1, 0] (extractStridedSlice S48x768 ![0, 0] (m ((c : Thread nD τ).loc main_arg1)) slices_S48x1536_S48x768_0_0)
          transposes_S48x768_S768x48_1_0 := by
    show StableHlo.after hostOps0 (W0 m ρ c) (Proc.devRef .tc main_v2) = _
    dsimp only [hostOps0]
    after_results
  exact e.trans (transpose_slice 0 _ _ _ _)

/-- the right half of `W` transposed, -/
theorem entry_wr (c : Dev nD) :
    (V1 m ρ c main_v3 : FVec Ideal S768x48 .f32) = halfT 768 (by decide) (m ((c : Thread nD τ).loc main_arg1)) := by
  have e : (V1 m ρ c main_v3 : FVec Ideal S768x48 .f32)
      = transpose S768x48 [1, 0] (extractStridedSlice S48x768 ![0, 768] (m ((c : Thread nD τ).loc main_arg1)) slices_S48x1536_S48x768_0_768)
          transposes_S48x768_S768x48_1_0 := by
    show StableHlo.after hostOps0 (W0 m ρ c) (Proc.devRef .tc main_v3) = _
    dsimp only [hostOps0]
    after_results
  exact e.trans (transpose_slice 768 _ _ _ _)

/-- and the bias as a row. -/
theorem entry_b (c : Dev nD) :
    (V1 m ρ c main_v4 : FVec Ideal S1x48 .f32) = biasRow (m ((c : Thread nD τ).loc main_arg2)) := by
  have e : (V1 m ρ c main_v4 : FVec Ideal S1x48 .f32)
      = shapeCast S1x48 (m ((c : Thread nD τ).loc main_arg2)) shapeCasts_S48_S1x48 := by
    show StableHlo.after hostOps0 (W0 m ρ c) (Proc.devRef .tc main_v4) = _
    dsimp only [hostOps0]
    after_results
    rfl
  exact e.trans (reshape_row _ _)

/-! ## Through the two regions -/

/-- The second region is entered with the two projections the first region leaves, -/
theorem mid_p (c : Dev nD) : (V2 m ρ c main_v5_0 : FVec Ideal S4x512x48 .f32)
    = projT (m ((c : Thread nD τ).loc main_arg0)) (halfT 0 (by decide) (m ((c : Thread nD τ).loc main_arg1))) :=
  ((W2_arr m ρ c 3).trans (Projection.final3 (V1 m ρ) c)).trans (congrArg₂ projT (entry_h m ρ c) (entry_wl m ρ c))

theorem mid_q (c : Dev nD) : (V2 m ρ c main_v5_1 : FVec Ideal S4x512x48 .f32)
    = projT (m ((c : Thread nD τ).loc main_arg0)) (halfT 768 (by decide) (m ((c : Thread nD τ).loc main_arg1))) :=
  ((W2_arr m ρ c 4).trans (Projection.final4 (V1 m ρ) c)).trans (congrArg₂ projT (entry_h m ρ c) (entry_wr m ρ c))

/-- and the bias row, which the first region does not touch. -/
theorem mid_b (c : Dev nD) : (V2 m ρ c main_v4 : FVec Ideal S1x48 .f32) = biasRow (m ((c : Thread nD τ).loc main_arg2)) :=
  (W2_of_ne m ρ c main_v4 (by decide)).trans (entry_b m ρ c)

/-- The result array at the last boundary. -/
theorem result_eq (c : Dev nD) : (W3 m ρ c (Proc.devRef .tc main_v6) : FVec Ideal S4x512x512x48 .f32)
    = head (m ((c : Thread nD τ).loc main_arg0)) (m ((c : Thread nD τ).loc main_arg1)) (m ((c : Thread nD τ).loc main_arg2)) :=
  ((W3_arr m ρ c 3).trans (BroadcastSum.final (V2 m ρ) c)).trans
    (congr (congrArg₂ pairSum (mid_p m ρ c) (mid_q m ρ c)) (mid_b m ρ c))

/-- The kernel's run with its result named: every weakly fair execution of @main terminates, the result array at `head` of the
    arguments' launch contents, the arguments unchanged. -/
theorem run : θ_run defs (onTc (τ := τ) (main (F := Ideal))) ⟨m, fun _ => 0, ρ⟩ (fun r => ∀ c : Dev nD,
      r.2.mem ((c.tc : Thread nD τ).loc main_v6)
        = head (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (RunResult.run_result m ρ)

end Cert.KernelIdeal.KernelValue

end
-- ==== Proof.RefValue.lean ====
/-
  The reference, read at an index: its last stage is `head` of the three arguments.

  The reference slices the two halves of `W`, contracts each against the activations along the 768 columns, places the first
  product on axes `(0, 1, 3)` and the second on axes `(0, 2, 3)` of the result, adds them, and adds the bias placed on axis 3.
  Read at `(n, i, j, c)` that is `(Σ_k h[n, i, k] · W[c, k] + Σ_k h[n, j, k] · W[c, 768 + k]) + b[c]`, term for term
  the specification's `head`; only the indices the stages compose have to be matched with the specification's.
-/
import proofs.«110676_j15977278341601_1_alg».proof.Proof.Gen.ReferenceIdeal.Read
import proofs.«110676_j15977278341601_1_alg».proof.Proof.Spec

noncomputable section

namespace Cert.ReferenceIdeal.RefValue

open Cert.ReferenceIdeal Cert.ReferenceIdeal.Read Cert.PairHead
open Idealize.ShloMosaic Idealize.ShloMosaic.ValueIdx

theorem stage_eq_head (x0 : FVec Ideal S4x512x768 .f32) (x1 : FVec Ideal S48x1536 .f32) (x2 : FVec Ideal S48 .f32) :
    val_main_v11 (F := Ideal) x0 x1 x2 = head x0 x1 x2 := by
  funext i
  rw [val_main_v11_apply, val_main_v8_apply, val_main_v6_apply, val_main_v4_apply, val_main_v2_apply,
    val_main_v7_apply, val_main_v5_apply, val_main_v3_apply, val_main_v10_apply, val_main_v9_apply]
  simp only [val_main_v0_apply, val_main_v1_apply]
  unfold head pairSum projT halfT biasRow
  refine congrArg₂ (· + ·) (congrArg₂ (· + ·) (Finset.sum_congr rfl fun k _ => congrArg₂ (· * ·) (congrArg x0 ?_) (congrArg x1 ?_))
    (Finset.sum_congr rfl fun k _ => congrArg₂ (· * ·) (congrArg x0 ?_) (congrArg x1 ?_))) (congrArg x2 ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => show k.val = 0 + k.val; omega
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl
  · funext a; apply Fin.ext
    match a with
    | ⟨0, _⟩ => rfl

end Cert.ReferenceIdeal.RefValue

end
-- ==== Proof.lean ====
/-
  A pairwise classifier head: for activations `h : [4, 512, 768]`, weights `W : [48, 1536]` and a bias `b : [48]`,
      out[n, i, j, c] = (Σ_k h[n, i, k] · W[c, k]  +  Σ_k h[n, j, k] · W[c, 768 + k])  +  b[c].

  The kernel program computes the two projections in one pipelined region (a matrix product per weight half, its operands'
  narrowing to a shorter float format the identity on the extended reals) and their broadcast sum with the bias in a second;
  the reference contracts the two halves of `W` against the activations on the host and adds the broadcasts. Both group the
  three summands as `(p + q) + b` and both sum each projection over the same 768 positions, so on the extended reals the two
  results are the same function `head` of the arguments, index by index, and the precondition (finite inputs) is never opened.

  The three frames are the generated ones (the reference's is its run with the result dropped); the kernel's idealization
  rewrote no operation, so nothing is to be preserved; the value claim puts the kernel's run (`KernelValue.run`) beside the
  reference's run, both posted at `head`.
-/
import proofs.«110676_j15977278341601_1_alg».proof.Defs
import proofs.«110676_j15977278341601_1_alg».proof.Proof.Gen.Kernel
import proofs.«110676_j15977278341601_1_alg».proof.Proof.Gen.Kernel.Skeleton
import proofs.«110676_j15977278341601_1_alg».proof.Proof.Gen.Kernel.Launch
import proofs.«110676_j15977278341601_1_alg».proof.Proof.Gen.Kernel.Points
import proofs.«110676_j15977278341601_1_alg».proof.Proof.Gen.Kernel.Frame
import proofs.«110676_j15977278341601_1_alg».proof.Proof.Gen.KernelIdeal
import proofs.«110676_j15977278341601_1_alg».proof.Proof.Gen.KernelIdeal.Skeleton
import proofs.«110676_j15977278341601_1_alg».proof.Proof.Gen.KernelIdeal.Launch
import proofs.«110676_j15977278341601_1_alg».proof.Proof.Gen.KernelIdeal.Points
import proofs.«110676_j15977278341601_1_alg».proof.Proof.Gen.KernelIdeal.Frame
import proofs.«110676_j15977278341601_1_alg».proof.Proof.Gen.ReferenceIdeal
import proofs.«110676_j15977278341601_1_alg».proof.Proof.Gen.ReferenceIdeal.Run
import proofs.«110676_j15977278341601_1_alg».proof.Proof.Gen.ReferenceIdeal.Read
import proofs.«110676_j15977278341601_1_alg».proof.Proof.Gen.Pre_finite_inputs
import proofs.«110676_j15977278341601_1_alg».proof.Proof.KernelValue
import proofs.«110676_j15977278341601_1_alg».proof.Proof.RefValue
import Idealize.ShloMosaic.Adequacy
import Idealize.ShloMosaic.Init

noncomputable section

namespace Cert.Proof

open Idealize.ShloMosaic Idealize.SL.Sem Cert.PairHead

namespace PairHeadClaims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the result array at `head` of those arguments:
    the kernel by `KernelValue.run`, the reference because its last stage read at an index is `head`. -/
theorem algebraic : Cert.algebraic_KernelIdeal_ReferenceIdeal := by
  intro m ρ m' ρ' _ hagree
  refine ⟨fun c => head (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.stage_eq_head,
    (hagree c).1, (hagree c).2.1, (hagree c).2.2]

end PairHeadClaims

theorem claim : Cert.Claim := ⟨Cert.Kernel.Gen.facts, Cert.KernelIdeal.Gen.facts, Cert.ReferenceIdeal.Gen.facts, Cert.Pre_finite_inputs.Gen.facts,
  PairHeadClaims.frame_k, PairHeadClaims.frame_ki, PairHeadClaims.frame_ri, trivial, PairHeadClaims.algebraic⟩

end Cert.Proof

end
